-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4000x80 : Shape := ⟨3, ![128, 4000, 80]⟩
abbrev S128x2 : Shape := ⟨2, ![128, 2]⟩
abbrev S_ : Shape := ⟨0, ![]⟩

class Facts : Prop where
  bcast_S_S128x4000x80 : S_.BroadcastsInDim S128x4000x80 (![] : Fin 0 → Fin S128x4000x80.rank)
  reducesTo_S128x4000x80_S_d0_1_2 : S128x4000x80.ReducesTo [0, 1, 2] S_
  h_S_ : 0 < S_.numel

variable [Facts]

def fn {F : FTy → Type} [FloatOps F] (main_arg0 : FVec F S128x4000x80 .f32) (main_arg1 : IVec S128x2 32) (main_arg2 : IVec S128x2 32) (main_arg3 : IVec S128x2 32) (main_arg4 : IVec S128x2 32) : IVec S_ 1 :=
  let main_v0 : FVec F S128x4000x80 .f32 := Host.absf main_arg0
  let main_cst : FVec F S_ .f32 := constant S_ .f32 0x7F800000#32
  let main_v1 : FVec F S128x4000x80 .f32 := broadcastInDim S128x4000x80 ![] bcast_S_S128x4000x80 main_cst
  let main_v2 : IVec S128x4000x80 1 := cmpf .olt main_v0 main_v1
  let main_c : IVec S_ 1 := constantI S_ 1 1#1
  let main_v3 : IVec S_ 1 := (fun x v => Host.reduce IntOp.andi x v reducesTo_S128x4000x80_S_d0_1_2 h_S_) main_v2 main_c
  main_v3
-- ==== Kernel.lean ====
abbrev S128x4000x80 : Shape := ⟨3, ![128, 4000, 80]⟩
abbrev S128x2 : Shape := ⟨2, ![128, 2]⟩
abbrev S80 : Shape := ⟨1, ![80]⟩
abbrev S1x1x80 : Shape := ⟨3, ![1, 1, 80]⟩
abbrev S128x2x1 : Shape := ⟨3, ![128, 2, 1]⟩
abbrev S128x2x80 : Shape := ⟨3, ![128, 2, 80]⟩
abbrev S_ : Shape := ⟨0, ![]⟩
abbrev S128x80 : Shape := ⟨2, ![128, 80]⟩
abbrev S4000 : Shape := ⟨1, ![4000]⟩
abbrev S1x1x4000 : Shape := ⟨3, ![1, 1, 4000]⟩
abbrev S128x2x4000 : Shape := ⟨3, ![128, 2, 4000]⟩
abbrev S128x4000 : Shape := ⟨2, ![128, 4000]⟩
abbrev S128x1x80 : Shape := ⟨3, ![128, 1, 80]⟩
abbrev S128x4000x1 : Shape := ⟨3, ![128, 4000, 1]⟩
abbrev S16x1000x80 : Shape := ⟨3, ![16, 1000, 80]⟩
abbrev S16x1x80 : Shape := ⟨3, ![16, 1, 80]⟩
abbrev S16x1000x1 : Shape := ⟨3, ![16, 1000, 1]⟩

abbrev nBuf : Space → Nat
  | .hbm => 42
  | .vmem => 8
  | .smem => 0
  | _ => 0

abbrev bufTy : (tb : Table) → Fin (tcTables nBuf tb) → BufTy
  | .hbm, ⟨0, _⟩ => ⟨S128x4000x80, .f32⟩
  | .hbm, ⟨1, _⟩ => ⟨S128x2, .i32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S80, .i32⟩
  | .hbm, ⟨6, _⟩ => ⟨S1x1x80, .i32⟩
  | .hbm, ⟨7, _⟩ => ⟨S128x2x1, .i32⟩
  | .hbm, ⟨8, _⟩ => ⟨S128x2x80, .i32⟩
  | .hbm, ⟨9, _⟩ => ⟨S128x2x80, .i32⟩
  | .hbm, ⟨10, _⟩ => ⟨S128x2x80, .i1⟩
  | .hbm, ⟨11, _⟩ => ⟨S1x1x80, .i32⟩
  | .hbm, ⟨12, _⟩ => ⟨S128x2, .i32⟩
  | .hbm, ⟨13, _⟩ => ⟨S128x2x1, .i32⟩
  | .hbm, ⟨14, _⟩ => ⟨S128x2x80, .i32⟩
  | .hbm, ⟨15, _⟩ => ⟨S128x2x80, .i32⟩
  | .hbm, ⟨16, _⟩ => ⟨S128x2x80, .i1⟩
  | .hbm, ⟨17, _⟩ => ⟨S128x2x80, .i1⟩
  | .hbm, ⟨18, _⟩ => ⟨S_, .i1⟩
  | .hbm, ⟨19, _⟩ => ⟨S128x80, .i1⟩
  | .hbm, ⟨20, _⟩ => ⟨S4000, .i32⟩
  | .hbm, ⟨21, _⟩ => ⟨S1x1x4000, .i32⟩
  | .hbm, ⟨22, _⟩ => ⟨S128x2x1, .i32⟩
  | .hbm, ⟨23, _⟩ => ⟨S128x2x4000, .i32⟩
  | .hbm, ⟨24, _⟩ => ⟨S128x2x4000, .i32⟩
  | .hbm, ⟨25, _⟩ => ⟨S128x2x4000, .i1⟩
  | .hbm, ⟨26, _⟩ => ⟨S1x1x4000, .i32⟩
  | .hbm, ⟨27, _⟩ => ⟨S128x2, .i32⟩
  | .hbm, ⟨28, _⟩ => ⟨S128x2x1, .i32⟩
  | .hbm, ⟨29, _⟩ => ⟨S128x2x4000, .i32⟩
  | .hbm, ⟨30, _⟩ => ⟨S128x2x4000, .i32⟩
  | .hbm, ⟨31, _⟩ => ⟨S128x2x4000, .i1⟩
  | .hbm, ⟨32, _⟩ => ⟨S128x2x4000, .i1⟩
  | .hbm, ⟨33, _⟩ => ⟨S_, .i1⟩
  | .hbm, ⟨34, _⟩ => ⟨S128x4000, .i1⟩
  | .hbm, ⟨35, _⟩ => ⟨S128x80, .i1⟩
  | .hbm, ⟨36, _⟩ => ⟨S128x80, .f32⟩
  | .hbm, ⟨37, _⟩ => ⟨S128x1x80, .f32⟩
  | .hbm, ⟨38, _⟩ => ⟨S128x4000, .i1⟩
  | .hbm, ⟨39, _⟩ => ⟨S128x4000, .f32⟩
  | .hbm, ⟨40, _⟩ => ⟨S128x4000x1, .f32⟩
  | .hbm, ⟨41, _⟩ => ⟨S128x4000x80, .f32⟩
  | .local _ .vmem, ⟨0, _⟩ => ⟨S16x1000x80, .f32⟩
  | .local _ .vmem, ⟨1, _⟩ => ⟨S16x1000x80, .f32⟩
  | .local _ .vmem, ⟨2, _⟩ => ⟨S16x1x80, .f32⟩
  | .local _ .vmem, ⟨3, _⟩ => ⟨S16x1x80, .f32⟩
  | .local _ .vmem, ⟨4, _⟩ => ⟨S16x1000x1, .f32⟩
  | .local _ .vmem, ⟨5, _⟩ => ⟨S16x1000x1, .f32⟩
  | .local _ .vmem, ⟨6, _⟩ => ⟨S16x1000x80, .f32⟩
  | .local _ .vmem, ⟨7, _⟩ => ⟨S16x1000x80, .f32⟩
  | _, _ => ⟨S128x4000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x1000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1000x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S80_S1x1x80_2 : S80.BroadcastsInDim S1x1x80 (![2] : Fin 1 → Fin S1x1x80.rank)
  bcast_S128x2_S128x2x1_0_1 : S128x2.BroadcastsInDim S128x2x1 (![0, 1] : Fin 2 → Fin S128x2x1.rank)
  bcast_S1x1x80_S128x2x80_0_1_2 : S1x1x80.BroadcastsInDim S128x2x80 (![0, 1, 2] : Fin 3 → Fin S128x2x80.rank)
  bcast_S128x2x1_S128x2x80_0_1_2 : S128x2x1.BroadcastsInDim S128x2x80 (![0, 1, 2] : Fin 3 → Fin S128x2x80.rank)
  reducesTo_S128x2x80_S128x80_d1 : S128x2x80.ReducesTo [1] S128x80
  h_S_ : 0 < S_.numel
  bcast_S4000_S1x1x4000_2 : S4000.BroadcastsInDim S1x1x4000 (![2] : Fin 1 → Fin S1x1x4000.rank)
  bcast_S1x1x4000_S128x2x4000_0_1_2 : S1x1x4000.BroadcastsInDim S128x2x4000 (![0, 1, 2] : Fin 3 → Fin S128x2x4000.rank)
  bcast_S128x2x1_S128x2x4000_0_1_2 : S128x2x1.BroadcastsInDim S128x2x4000 (![0, 1, 2] : Fin 3 → Fin S128x2x4000.rank)
  reducesTo_S128x2x4000_S128x4000_d1 : S128x2x4000.ReducesTo [1] S128x4000
  bcast_S128x80_S128x1x80_0_2 : S128x80.BroadcastsInDim S128x1x80 (![0, 2] : Fin 2 → Fin S128x1x80.rank)
  bcast_S128x4000_S128x4000x1_0_1 : S128x4000.BroadcastsInDim S128x4000x1 (![0, 1] : Fin 2 → Fin S128x4000x1.rank)
  inb_S16x1000x80_S16x1000x80_0_0_0 : ∀ a, (![0, 0, 0] : Fin 3 → Nat) a + S16x1000x80.size a ≤ S16x1000x80.size a
  h_S16x1000x80 : 0 < S16x1000x80.numel
  inb_S16x1x80_S16x1x80_0_0_0 : ∀ a, (![0, 0, 0] : Fin 3 → Nat) a + S16x1x80.size a ≤ S16x1x80.size a
  h_S16x1x80 : 0 < S16x1x80.numel
  shapeCasts_S16x1x80_S16x1x80 : S16x1x80.ShapeCasts S16x1x80
  broadcasts_S16x1x80_S16x1000x80 : S16x1x80.Broadcasts S16x1000x80
  inb_S16x1000x1_S16x1000x1_0_0_0 : ∀ a, (![0, 0, 0] : Fin 3 → Nat) a + S16x1000x1.size a ≤ S16x1000x1.size a
  h_S16x1000x1 : 0 < S16x1000x1.numel
  shapeCasts_S16x1000x1_S16x1000x1 : S16x1000x1.ShapeCasts S16x1000x1
  broadcasts_S16x1000x1_S16x1000x80 : S16x1000x1.Broadcasts S16x1000x80
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1000x80.size a ≤ S128x4000x80.size a
  hwx0_0 : ∀ i : grid0.Coords, EltTy.bits .f32 = 32 ∨ (Rect.block (s := S128x4000x80) S16x1000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x80.size a ≤ S128x1x80.size a
  hwx0_1 : ∀ i : grid0.Coords, EltTy.bits .f32 = 32 ∨ (Rect.block (s := S128x1x80) S16x1x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1000x1.size a ≤ S128x4000x1.size a
  hwx0_2 : ∀ i : grid0.Coords, EltTy.bits .f32 = 32 ∨ (Rect.block (s := S128x4000x1) S16x1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1000x80.size a ≤ S128x4000x80.size a
  hwx0_3 : ∀ i : grid0.Coords, EltTy.bits .f32 = 32 ∨ (Rect.block (s := S128x4000x80) S16x1000x80.size (cc0_transform_3 i) (hinb0_3 i)).WholeWords (EltTy.packing .f32)

variable [Facts₀]

abbrev win0_0 : Pipeline.Window sig grid0 :=
  Pipeline.Window.ofSpec (Memref.whole main_arg0) S16x1000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S16x1x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S16x1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S16x1000x80.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4000x80 : Shape := ⟨3, ![128, 4000, 80]⟩
abbrev S128x2 : Shape := ⟨2, ![128, 2]⟩
abbrev S80 : Shape := ⟨1, ![80]⟩
abbrev S1x1x80 : Shape := ⟨3, ![1, 1, 80]⟩
abbrev S128x2x1 : Shape := ⟨3, ![128, 2, 1]⟩
abbrev S128x2x80 : Shape := ⟨3, ![128, 2, 80]⟩
abbrev S_ : Shape := ⟨0, ![]⟩
abbrev S128x80 : Shape := ⟨2, ![128, 80]⟩
abbrev S4000 : Shape := ⟨1, ![4000]⟩
abbrev S1x1x4000 : Shape := ⟨3, ![1, 1, 4000]⟩
abbrev S128x2x4000 : Shape := ⟨3, ![128, 2, 4000]⟩
abbrev S128x4000 : Shape := ⟨2, ![128, 4000]⟩
abbrev S128x1x80 : Shape := ⟨3, ![128, 1, 80]⟩
abbrev S128x4000x1 : Shape := ⟨3, ![128, 4000, 1]⟩

abbrev nBuf : Space → Nat
  | .hbm => 45
  | .vmem => 0
  | .smem => 0
  | _ => 0

abbrev bufTy : (tb : Table) → Fin (tcTables nBuf tb) → BufTy
  | .hbm, ⟨0, _⟩ => ⟨S128x4000x80, .f32⟩
  | .hbm, ⟨1, _⟩ => ⟨S128x2, .i32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S80, .i32⟩
  | .hbm, ⟨6, _⟩ => ⟨S1x1x80, .i32⟩
  | .hbm, ⟨7, _⟩ => ⟨S128x2x1, .i32⟩
  | .hbm, ⟨8, _⟩ => ⟨S128x2x80, .i32⟩
  | .hbm, ⟨9, _⟩ => ⟨S128x2x80, .i32⟩
  | .hbm, ⟨10, _⟩ => ⟨S128x2x80, .i1⟩
  | .hbm, ⟨11, _⟩ => ⟨S1x1x80, .i32⟩
  | .hbm, ⟨12, _⟩ => ⟨S128x2, .i32⟩
  | .hbm, ⟨13, _⟩ => ⟨S128x2x1, .i32⟩
  | .hbm, ⟨14, _⟩ => ⟨S128x2x80, .i32⟩
  | .hbm, ⟨15, _⟩ => ⟨S128x2x80, .i32⟩
  | .hbm, ⟨16, _⟩ => ⟨S128x2x80, .i1⟩
  | .hbm, ⟨17, _⟩ => ⟨S128x2x80, .i1⟩
  | .hbm, ⟨18, _⟩ => ⟨S_, .i1⟩
  | .hbm, ⟨19, _⟩ => ⟨S128x80, .i1⟩
  | .hbm, ⟨20, _⟩ => ⟨S4000, .i32⟩
  | .hbm, ⟨21, _⟩ => ⟨S1x1x4000, .i32⟩
  | .hbm, ⟨22, _⟩ => ⟨S128x2x1, .i32⟩
  | .hbm, ⟨23, _⟩ => ⟨S128x2x4000, .i32⟩
  | .hbm, ⟨24, _⟩ => ⟨S128x2x4000, .i32⟩
  | .hbm, ⟨25, _⟩ => ⟨S128x2x4000, .i1⟩
  | .hbm, ⟨26, _⟩ => ⟨S1x1x4000, .i32⟩
  | .hbm, ⟨27, _⟩ => ⟨S128x2, .i32⟩
  | .hbm, ⟨28, _⟩ => ⟨S128x2x1, .i32⟩
  | .hbm, ⟨29, _⟩ => ⟨S128x2x4000, .i32⟩
  | .hbm, ⟨30, _⟩ => ⟨S128x2x4000, .i32⟩
  | .hbm, ⟨31, _⟩ => ⟨S128x2x4000, .i1⟩
  | .hbm, ⟨32, _⟩ => ⟨S128x2x4000, .i1⟩
  | .hbm, ⟨33, _⟩ => ⟨S_, .i1⟩
  | .hbm, ⟨34, _⟩ => ⟨S128x4000, .i1⟩
  | .hbm, ⟨35, _⟩ => ⟨S128x80, .i1⟩
  | .hbm, ⟨36, _⟩ => ⟨S128x1x80, .i1⟩
  | .hbm, ⟨37, _⟩ => ⟨S128x1x80, .f32⟩
  | .hbm, ⟨38, _⟩ => ⟨S128x4000, .i1⟩
  | .hbm, ⟨39, _⟩ => ⟨S128x4000x1, .i1⟩
  | .hbm, ⟨40, _⟩ => ⟨S128x4000x1, .f32⟩
  | .hbm, ⟨41, _⟩ => ⟨S128x4000x80, .f32⟩
  | .hbm, ⟨42, _⟩ => ⟨S128x4000x80, .f32⟩
  | .hbm, ⟨43, _⟩ => ⟨S128x4000x80, .f32⟩
  | .hbm, ⟨44, _⟩ => ⟨S128x4000x80, .f32⟩
  | _, _ => ⟨S128x4000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]

class Facts₀ : Prop where
  bcast_S80_S1x1x80_2 : S80.BroadcastsInDim S1x1x80 (![2] : Fin 1 → Fin S1x1x80.rank)
  bcast_S128x2_S128x2x1_0_1 : S128x2.BroadcastsInDim S128x2x1 (![0, 1] : Fin 2 → Fin S128x2x1.rank)
  bcast_S1x1x80_S128x2x80_0_1_2 : S1x1x80.BroadcastsInDim S128x2x80 (![0, 1, 2] : Fin 3 → Fin S128x2x80.rank)
  bcast_S128x2x1_S128x2x80_0_1_2 : S128x2x1.BroadcastsInDim S128x2x80 (![0, 1, 2] : Fin 3 → Fin S128x2x80.rank)
  reducesTo_S128x2x80_S128x80_d1 : S128x2x80.ReducesTo [1] S128x80
  h_S_ : 0 < S_.numel
  bcast_S4000_S1x1x4000_2 : S4000.BroadcastsInDim S1x1x4000 (![2] : Fin 1 → Fin S1x1x4000.rank)
  bcast_S1x1x4000_S128x2x4000_0_1_2 : S1x1x4000.BroadcastsInDim S128x2x4000 (![0, 1, 2] : Fin 3 → Fin S128x2x4000.rank)
  bcast_S128x2x1_S128x2x4000_0_1_2 : S128x2x1.BroadcastsInDim S128x2x4000 (![0, 1, 2] : Fin 3 → Fin S128x2x4000.rank)
  reducesTo_S128x2x4000_S128x4000_d1 : S128x2x4000.ReducesTo [1] S128x4000
  bcast_S128x80_S128x1x80_0_2 : S128x80.BroadcastsInDim S128x1x80 (![0, 2] : Fin 2 → Fin S128x1x80.rank)
  bcast_S128x4000_S128x4000x1_0_1 : S128x4000.BroadcastsInDim S128x4000x1 (![0, 1] : Fin 2 → Fin S128x4000x1.rank)
  bcast_S128x1x80_S128x4000x80_0_1_2 : S128x1x80.BroadcastsInDim S128x4000x80 (![0, 1, 2] : Fin 3 → Fin S128x4000x80.rank)
  bcast_S128x4000x1_S128x4000x80_0_1_2 : S128x4000x1.BroadcastsInDim S128x4000x80 (![0, 1, 2] : Fin 3 → Fin S128x4000x80.rank)

variable [Facts₀]

class Facts : Prop extends Facts₀ where

variable [Facts]
-- ==== Proof.Masking.lean ====
/-
  The masked array, stated once for both programs, over the literal shapes.

  Sample `b` of a batch of 128 arrays of 4000 time steps by 80 frequency bins is kept where neither a frequency
  band nor a time span covers it.  With `fb b f` the bit "bin `f` of sample `b` lies in a masked frequency band" and
  `tb b t` the bit "step `t` of sample `b` lies in a masked time span", the result at `(b, t, f)` is

      x (b, t, f) · u (¬ fb (b, f)) · u (¬ tb (b, t)),

  where `u` reads a bit as the float 0 or 1.  `masked` groups the product from the left, as the kernel computes
  it; the reference forms the product of the two keep factors first.  On the extended reals multiplication is
  associative without any side condition (it is a commutative monoid with zero, the infinities included), so the
  two groupings agree at every input: `regroup`.  Nothing here needs the inputs to be finite.
-/
import Idealize.ShloMosaic.PureOps.Ideal
import Idealize.ShloMosaic.Lib.ValueIdx

noncomputable section

namespace Cert.Masking

open Idealize.ShloMosaic Idealize.ShloMosaic.ValueIdx

variable {F : FTy → Type} [FloatOps F]

/-- The batch with the masked bins and steps zeroed: entry `(b, t, f)` of `x` times the keep factor of
    bin `(b, f)` times the keep factor of step `(b, t)`, each keep factor the complement of a band bit read as 0 or 1. -/
def masked (x : (⟨⟨3, ![128, 4000, 80]⟩, .f32⟩ : BufTy).Contents (Elt F))
    (fb : (⟨⟨2, ![128, 80]⟩, .i1⟩ : BufTy).Contents (Elt F)) (tb : (⟨⟨2, ![128, 4000]⟩, .i1⟩ : BufTy).Contents (Elt F)) :
    (⟨⟨3, ![128, 4000, 80]⟩, .f32⟩ : BufTy).Contents (Elt F) :=
  fun i => FloatOps.mulf (FloatOps.mulf (x i) (FloatOps.uitofp .f32 (~~~ fb (ix2 (i 0) (i 2)))))
    (FloatOps.uitofp .f32 (~~~ tb (ix2 (i 0) (i 1))))

/-- On the extended reals a product of three factors does not depend on its grouping. -/
theorem regroup (a k l : Ideal .f32) :
    FloatOps.mulf a (FloatOps.mulf k l) = FloatOps.mulf (FloatOps.mulf a k) l := by
  simp only [Ideal.mulf_def]
  exact (mul_assoc a k l).symm

end Cert.Masking

end
-- ==== Proof.KernelArray.lean ====
/-
  What the kernel leaves in its result array, as one function of the argument arrays.

  Before the one region the host operations build two keep arrays from the integer arguments: for each sample the
  bins inside a frequency band (start ≤ f < start + width, either of the two bands: `freqBand`) and the steps inside
  a time span (`timeBand`), complemented, read as 0 or 1, and laid out as `128×1×80` and `128×4000×1`.  The region
  runs over a grid of 8 × 4 points; point `(p, q)` multiplies the `16×1000×80` block of `x` at block index `(p, q, 0)`
  by the `16×1×80` block `(p, 0, 0)` of the bin factors, repeated along the time axis, and then by the `16×1000×1`
  block `(p, q, 0)` of the step factors, repeated along the frequency axis, and writes the product back as block
  `(p, q, 0)` of the result.

  So entry `(b, t, f)` of a block is read from `x` at the same array index, from the bin factors at `(b, 0, f)` and
  from the step factors at `(b, t, 0)` (`flushed_eq`: a block coordinate is block index × block size + the coordinate
  inside the block, and the three input windows move with the output's on the axes they share).  The 32 blocks tile
  the array — row `b` lies in block `b / 16`, step `t` in block `t / 1000` (`cover`) — so the array ends at that
  one function everywhere (`final`), which at each index is `Masking.masked` of the arguments (`final_eq`).
-/
import proofs.«174696_j75239237092009_1_alg».proof.Proof.Gen.KernelIdeal.Value
import proofs.«174696_j75239237092009_1_alg».proof.Proof.Masking
import Idealize.ShloMosaic.Lib.ValueIdx
import Idealize.ShloMosaic.Lib.Pipeline.Value
import Idealize.ShloMosaic.Lib.StableHlo.Run

set_option maxRecDepth 16384

noncomputable section

namespace Cert.KernelIdeal.Masked

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The two band masks -/

/-- Bit `(b, f)`: frequency bin `f` lies in one of sample `b`'s two bands, `start ≤ f < start + width`
    (`x1` the widths, `x2` the starts; signed compares; the two bands joined by "or"). -/
def freqBand (x1 x2 : (⟨S128x2, .i32⟩ : BufTy).Contents (Elt F)) : (⟨S128x80, .i1⟩ : BufTy).Contents (Elt F) :=
  Host.reduce IntOp.ori (andi (cmpi .sge (broadcastInDim S128x2x80 ![0, 1, 2] bcast_S1x1x80_S128x2x80_0_1_2 (broadcastInDim S1x1x80 ![2] bcast_S80_S1x1x80_2 (iotaInDim S80 32 0))) (broadcastInDim S128x2x80 ![0, 1, 2] bcast_S128x2x1_S128x2x80_0_1_2 (broadcastInDim S128x2x1 ![0, 1] bcast_S128x2_S128x2x1_0_1 x2))) (cmpi .slt (broadcastInDim S128x2x80 ![0, 1, 2] bcast_S1x1x80_S128x2x80_0_1_2 (broadcastInDim S1x1x80 ![2] bcast_S80_S1x1x80_2 (iotaInDim S80 32 0))) (broadcastInDim S128x2x80 ![0, 1, 2] bcast_S128x2x1_S128x2x80_0_1_2 (broadcastInDim S128x2x1 ![0, 1] bcast_S128x2_S128x2x1_0_1 (addi x2 x1))))) (constantI S_ 1 0#1) reducesTo_S128x2x80_S128x80_d1 h_S_

/-- Bit `(b, t)`: time step `t` lies in one of sample `b`'s two spans (`x3` the widths, `x4` the starts). -/
def timeBand (x3 x4 : (⟨S128x2, .i32⟩ : BufTy).Contents (Elt F)) : (⟨S128x4000, .i1⟩ : BufTy).Contents (Elt F) :=
  Host.reduce IntOp.ori (andi (cmpi .sge (broadcastInDim S128x2x4000 ![0, 1, 2] bcast_S1x1x4000_S128x2x4000_0_1_2 (broadcastInDim S1x1x4000 ![2] bcast_S4000_S1x1x4000_2 (iotaInDim S4000 32 0))) (broadcastInDim S128x2x4000 ![0, 1, 2] bcast_S128x2x1_S128x2x4000_0_1_2 (broadcastInDim S128x2x1 ![0, 1] bcast_S128x2_S128x2x1_0_1 x4))) (cmpi .slt (broadcastInDim S128x2x4000 ![0, 1, 2] bcast_S1x1x4000_S128x2x4000_0_1_2 (broadcastInDim S1x1x4000 ![2] bcast_S4000_S1x1x4000_2 (iotaInDim S4000 32 0))) (broadcastInDim S128x2x4000 ![0, 1, 2] bcast_S128x2x1_S128x2x4000_0_1_2 (broadcastInDim S128x2x1 ![0, 1] bcast_S128x2_S128x2x1_0_1 (addi x4 x3))))) (constantI S_ 1 0#1) reducesTo_S128x2x4000_S128x4000_d1 h_S_

/-! ## The keep arrays the region finds -/

set_option maxHeartbeats 2000000 in
/-- The bin factors as the region finds them: the complement of `freqBand`, as 0 or 1, with a unit time axis. -/
theorem binFactors_eq (c : Dev nD) :
    (V m c main_v30 : (⟨S128x1x80, .f32⟩ : BufTy).Contents (Elt F))
      = broadcastInDim S128x1x80 ![0, 2] bcast_S128x80_S128x1x80_0_2
          (uitofp .f32 (noti (freqBand (m ((c : Thread nD τ).loc main_arg1)) (m ((c : Thread nD τ).loc main_arg2))))) := by
  unfold freqBand
  dsimp only [V, hostOps0]; after_results

set_option maxHeartbeats 2000000 in
/-- The step factors as the region finds them: the complement of `timeBand`, as 0 or 1, with a unit frequency axis. -/
theorem stepFactors_eq (c : Dev nD) :
    (V m c main_v33 : (⟨S128x4000x1, .f32⟩ : BufTy).Contents (Elt F))
      = broadcastInDim S128x4000x1 ![0, 1] bcast_S128x4000_S128x4000x1_0_1
          (uitofp .f32 (noti (timeBand (m ((c : Thread nD τ).loc main_arg3)) (m ((c : Thread nD τ).loc main_arg4))))) := by
  unfold timeBand
  dsimp only [V, hostOps0]; after_results

/-- Where entry `i` of the result reads the bin factors: same sample, same bin, the unit axis at 0. -/
abbrev binAt (i : S128x4000x80.Idx) : S128x1x80.Idx := ix3 (i 0) (0 : Fin 1) (i 2)
/-- Where entry `i` of the result reads the step factors: same sample, same step, the unit axis at 0. -/
abbrev stepAt (i : S128x4000x80.Idx) : S128x4000x1.Idx := ix3 (i 0) (i 1) (0 : Fin 1)

/-- The bin factor of entry `i` is the complemented band bit of its sample and bin, as 0 or 1. -/
theorem binFactors_apply (c : Dev nD) (i : S128x4000x80.Idx) :
    V m c main_v30 (binAt i) = FloatOps.uitofp .f32 (~~~ freqBand (m ((c : Thread nD τ).loc main_arg1)) (m ((c : Thread nD τ).loc main_arg2)) (ix2 (i 0) (i 2))) := by
  rw [binFactors_eq]
  refine (broadcastInDim_apply _ bcast_S128x80_S128x1x80_0_2 _ (binAt i) (ix2 (i 0) (i 2)) (fun a => match a with
    | ⟨0, _⟩ => by show (i 0).val = if (128 : Nat) = 1 then 0 else (i 0).val; rw [if_neg (by decide)]
    | ⟨1, _⟩ => by show (i 2).val = if (80 : Nat) = 1 then 0 else (i 2).val; rw [if_neg (by decide)])).trans ?_
  rfl

/-- The step factor of entry `i` is the complemented span bit of its sample and step, as 0 or 1. -/
theorem stepFactors_apply (c : Dev nD) (i : S128x4000x80.Idx) :
    V m c main_v33 (stepAt i) = FloatOps.uitofp .f32 (~~~ timeBand (m ((c : Thread nD τ).loc main_arg3)) (m ((c : Thread nD τ).loc main_arg4)) (ix2 (i 0) (i 1))) := by
  rw [stepFactors_eq]
  refine (broadcastInDim_apply _ bcast_S128x4000_S128x4000x1_0_1 _ (stepAt i) (ix2 (i 0) (i 1)) (fun a => match a with
    | ⟨0, _⟩ => by show (i 0).val = if (128 : Nat) = 1 then 0 else (i 0).val; rw [if_neg (by decide)]
    | ⟨1, _⟩ => by show (i 1).val = if (4000 : Nat) = 1 then 0 else (i 1).val; rw [if_neg (by decide)])).trans ?_
  rfl

/-! ## One function for every block -/

theorem origin3 : (![0, 0, 0] : Fin 3 → Nat) = fun _ => 0 := funext fun a => by fin_cases a <;> rfl

/-- The product, entry by entry, of an array with bin factors read at `binAt` and step factors read at `stepAt`. -/
abbrev product (X : S128x4000x80.Idx → Elt F .f32) (KF : S128x1x80.Idx → Elt F .f32) (KT : S128x4000x1.Idx → Elt F .f32) :
    S128x4000x80.Idx → Elt F .f32 :=
  fun i => FloatOps.mulf (FloatOps.mulf (X i) (KF (binAt i))) (KT (stepAt i))

/-- The block index maps over the 32 grid points: `x` and the step factors move with the result on the sample and time
    axes, the bin factors on the sample axis only; every other block index is 0; the result's stay in 8 × 4. -/
theorem windows_move_together : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (0 : Fin 3) ≤ 7 ∧ win0_3.index t (1 : Fin 3) ≤ 3 ∧ win0_3.index t (2 : Fin 3) = 0 :=
  (by decide +kernel : ∀ t : Fin grid0.N, _)

/-- Every block index of the 8 × 4 box is some grid point's. -/
theorem every_block_visited : ∀ (p : Fin 8) (q : Fin 4), ∃ t : Fin cfg0.N, win0_3.index t = ![p.val, q.val, 0] :=
  (by decide +kernel : ∀ (p : Fin 8) (q : Fin 4), ∃ t : Fin grid0.N, win0_3.index t = ![p.val, q.val, 0])

/-- What grid point `t` writes back is block `t` of `product` of the arrays as the region finds them. -/
theorem flushed_eq (c : Dev nD) (t : Fin cfg0.N) :
    (dats m 0 c).flushed 3 t
      = ((cfg0.win 3).blk t).view.read (Elt F) (product (V m c main_arg0) (V m c main_v30) (V m c main_v33)) := by
  rw [Value.flushed3]
  unfold out0_3
  simp only [View.ld_unit_zero (S := S16x1000x80) origin3, View.ld_unit_zero (S := S16x1x80) origin3,
    View.ld_unit_zero (S := S16x1000x1) origin3]
  obtain ⟨a0, a1, a2, b0, b1, b2, c0, c1, c2, -, -, d2⟩ := windows_move_together t
  funext j
  have hj0 : (j 0).val < 16 := (j 0).isLt
  have hj1 : (j 1).val < 1000 := (j 1).isLt
  have hj2 : (j 2).val < 80 := (j 2).isLt
  show View.canon [⟨r0_0, k0_pay1 (iblk m c 0 t) (iblk m c 1 t) (iblk m c 2 t)⟩] j
    = product (V m c main_arg0) (V m c main_v30) (V m c main_v33) (((cfg0.win 3).blk t).view.emb j)
  refine (Value.canon3_eq (F := F) (iblk m c 0 t) (iblk m c 1 t) (iblk m c 2 t) j).trans ?_
  show FloatOps.mulf (FloatOps.mulf (V m c main_arg0 (((cfg0.win 0).blk t).view.emb (Value.ix3_0 j)))
        (V m c main_v30 (((cfg0.win 1).blk t).view.emb (Value.ix3_1 j))))
      (V m c main_v33 (((cfg0.win 2).blk t).view.emb (Value.ix3_2 j)))
    = FloatOps.mulf (FloatOps.mulf (V m c main_arg0 (((cfg0.win 3).blk t).view.emb j))
        (V m c main_v30 (binAt (((cfg0.win 3).blk t).view.emb j))))
      (V m c main_v33 (stepAt (((cfg0.win 3).blk t).view.emb j)))
  have h0 : ((cfg0.win 0).blk t).view.emb (Value.ix3_0 j) = ((cfg0.win 3).blk t).view.emb j := by
    funext a; apply Fin.ext
    match a with
    | ⟨0, _⟩ => show win0_0.index t (0 : Fin 3) * 16 + 1 * (j 0).val = win0_3.index t (0 : Fin 3) * 16 + 1 * (j 0).val; omega
    | ⟨1, _⟩ => show win0_0.index t (1 : Fin 3) * 1000 + 1 * (j 1).val = win0_3.index t (1 : Fin 3) * 1000 + 1 * (j 1).val; omega
    | ⟨2, _⟩ => show win0_0.index t (2 : Fin 3) * 80 + 1 * (j 2).val = win0_3.index t (2 : Fin 3) * 80 + 1 * (j 2).val; omega
  have h1 : ((cfg0.win 1).blk t).view.emb (Value.ix3_1 j) = binAt (((cfg0.win 3).blk t).view.emb j) := by
    funext a; apply Fin.ext
    match a with
    | ⟨0, _⟩ => show win0_1.index t (0 : Fin 3) * 16 + 1 * (j 0).val = win0_3.index t (0 : Fin 3) * 16 + 1 * (j 0).val; omega
    | ⟨1, _⟩ => show win0_1.index t (1 : Fin 3) * 1 + 1 * 0 = 0; omega
    | ⟨2, _⟩ => show win0_1.index t (2 : Fin 3) * 80 + 1 * (j 2).val = win0_3.index t (2 : Fin 3) * 80 + 1 * (j 2).val; omega
  have h2 : ((cfg0.win 2).blk t).view.emb (Value.ix3_2 j) = stepAt (((cfg0.win 3).blk t).view.emb j) := by
    funext a; apply Fin.ext
    match a with
    | ⟨0, _⟩ => show win0_2.index t (0 : Fin 3) * 16 + 1 * (j 0).val = win0_3.index t (0 : Fin 3) * 16 + 1 * (j 0).val; omega
    | ⟨1, _⟩ => show win0_2.index t (1 : Fin 3) * 1000 + 1 * (j 1).val = win0_3.index t (1 : Fin 3) * 1000 + 1 * (j 1).val; omega
    | ⟨2, _⟩ => show win0_2.index t (2 : Fin 3) * 1 + 1 * 0 = 0; omega
  rw [h0, h1, h2]

/-- An index of the result lies in point `t`'s block iff each coordinate lies in the block's range on its axis. -/
theorem mem_block (t : Fin cfg0.N) (i : S128x4000x80.Idx) :
    i ∈ ((cfg0.win 3).blk t).view.set ↔ ∀ a : Fin 3, win0_3.index t a * S16x1000x80.size a ≤ (i a).val
      ∧ (i a).val < win0_3.index t a * S16x1000x80.size a + S16x1000x80.size a := by
  show i ∈ ((View.whole main_v34).slice (win0_3.rect t)).set ↔ _
  rw [View.set_slice_whole, Rect.mem_set_unit]
  exact Iff.rfl

/-- The blocks tile the array: sample `b` lies in block row `b / 16`, step `t` in block column `t / 1000`, and the
    frequency axis is one block wide. -/
theorem cover (i : S128x4000x80.Idx) :
    ∃ t : Fin cfg0.N, (cfg0.win 3).flush t = true ∧ i ∈ ((cfg0.win 3).blk t).view.set := by
  have hi0 : (i 0).val < 128 := (i 0).isLt
  have hi1 : (i 1).val < 4000 := (i 1).isLt
  have hi2 : (i 2).val < 80 := (i 2).isLt
  obtain ⟨t, ht⟩ := every_block_visited ⟨(i 0).val / 16, by omega⟩ ⟨(i 1).val / 1000, by omega⟩
  have q0 : win0_3.index t (0 : Fin 3) = (i 0).val / 16 := congrFun ht 0
  have q1 : win0_3.index t (1 : Fin 3) = (i 1).val / 1000 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 1000 ≤ (i 1).val ∧ (i 1).val < win0_3.index t (1 : Fin 3) * 1000 + 1000; omega
  | ⟨2, _⟩ => show win0_3.index t (2 : Fin 3) * 80 ≤ (i 2).val ∧ (i 2).val < win0_3.index t (2 : Fin 3) * 80 + 80; omega

/-- The result array after the run is `product` of the arrays as the region finds them, everywhere. -/
theorem final (c : Dev nD) :
    (dats m 0 c).arrAt 3 cfg0.N = product (V m c main_arg0) (V m c main_v30) (V m c main_v33) :=
  (dats m 0 c).arrAt_eq_of_cover 3 _ (fun t _ => flushed_eq m c t) cover

/-- The result array after the run is the masked array of the arguments: `x` as launched (no host operation writes
    it), the factors the complemented band bits of the integer arguments. -/
theorem final_eq (c : Dev nD) :
    (dats m 0 c).arrAt 3 cfg0.N
      = Cert.Masking.masked (m ((c : Thread nD τ).loc main_arg0))
          (freqBand (m ((c : Thread nD τ).loc main_arg1)) (m ((c : Thread nD τ).loc main_arg2))) (timeBand (m ((c : Thread nD τ).loc main_arg3)) (m ((c : Thread nD τ).loc main_arg4))) := by
  rw [final]
  funext i
  show FloatOps.mulf (FloatOps.mulf (V m c main_arg0 i) (V m c main_v30 (binAt i))) (V m c main_v33 (stepAt i)) = _
  rw [binFactors_apply, stepFactors_apply, V_main_arg0]
  rfl

/-- Every weakly fair execution of the kernel's program ends with the result array at the masked array of the
    arguments and the arguments unchanged. -/
theorem run : θ_run defs (onTc (τ := τ) (main (F := F))) ⟨m, fun _ => 0, ρ⟩ fun r => ∀ c : Dev nD,
      r.2.mem ((c : Thread nD τ).loc main_v34)
        = Cert.Masking.masked (m ((c : Thread nD τ).loc main_arg0))
            (freqBand (m ((c : Thread nD τ).loc main_arg1)) (m ((c : Thread nD τ).loc main_arg2))) (timeBand (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq m c), (h c).2⟩) (Value.run_blocks m ρ)

end Cert.KernelIdeal.Masked

end
-- ==== Proof.ReferenceArray.lean ====
/-
  What the reference computes, at an index, and that it is the masked array.

  The reference builds the same two band masks from the integer arguments (its stages `v13`: bin `f` of sample `b`
  lies in a frequency band, and `v27`: step `t` of sample `b` lies in a time span), complements each, lays the bits
  out as `128×1×80` and `128×4000×1`, reads them as 0 or 1, repeats both to the full `128×4000×80` shape,
  multiplies the two keep factors, and multiplies `x` by that product.  Reading the last stage back one operation
  at a time, entry `(b, t, f)` is

      x (b, t, f) · ( u (¬ v13 (b, f)) · u (¬ v27 (b, t)) )            (`result_apply`)

  — each layout operation only moves an index (dropping the unit axis, then the repeated axis), and reading a bit
  as a float commutes with moving it.  At the extended reals the product regroups from the left without any side
  condition, which is `Masking.masked` of `x` and the two masks (`result_eq`).
-/
import proofs.«174696_j75239237092009_1_alg».proof.Proof.Gen.ReferenceIdeal.Read
import proofs.«174696_j75239237092009_1_alg».proof.Proof.Masking
import Idealize.ShloMosaic.Lib.ValueIdx

noncomputable section

namespace Cert.ReferenceIdeal.Masked

open Cert.ReferenceIdeal Cert.ReferenceIdeal.Gen Cert.ReferenceIdeal.Read Idealize.ShloMosaic Idealize.ShloMosaic.TcCoe
open Idealize.ShloMosaic.ValueIdx

variable {F : FTy → Type} [FloatOps F]

/-- Through the two layout steps of the bin factors, entry `i` of the result reads the mask at its sample and bin. -/
theorem bin_index (i : S128x4000x80.Idx) : idx_main_v29 (idx_main_v34 i) = ix2 (i 0) (i 2) :=
  funext fun a => Fin.ext (by match a with | ⟨0, _⟩ => rfl | ⟨1, _⟩ => rfl)

/-- Through the two layout steps of the step factors, entry `i` of the result reads the mask at its sample and step. -/
theorem step_index (i : S128x4000x80.Idx) : idx_main_v32 (idx_main_v35 i) = ix2 (i 0) (i 1) :=
  funext fun a => Fin.ext (by match a with | ⟨0, _⟩ => rfl | ⟨1, _⟩ => rfl)

/-- The reference's result at an index: `x` times the product of the two keep factors, each the complemented mask bit
    of the entry's sample and bin (or step) read as 0 or 1. At any float instance. -/
theorem result_apply (x0 : (⟨S128x4000x80, .f32⟩ : BufTy).Contents (Elt F))
    (x1 x2 x3 x4 : (⟨S128x2, .i32⟩ : BufTy).Contents (Elt F)) (i : S128x4000x80.Idx) :
    val_main_v37 (F := F) x0 x1 x2 x3 x4 i
      = FloatOps.mulf (x0 i) (FloatOps.mulf (FloatOps.uitofp .f32 (~~~ val_main_v13 (F := F) x1 x2 (ix2 (i 0) (i 2))))
          (FloatOps.uitofp .f32 (~~~ val_main_v27 (F := F) x3 x4 (ix2 (i 0) (i 1))))) := by
  rw [val_main_v37_apply, val_main_v36_apply, val_main_v34_apply, val_main_v30_apply, val_main_v29_apply,
    val_main_v28_apply, val_main_v35_apply, val_main_v33_apply, val_main_v32_apply, val_main_v31_apply,
    bin_index, step_index]
  rfl

/-- At the extended reals the reference's result is the masked array of `x` and its two band masks. -/
theorem result_eq (x0 : (⟨S128x4000x80, .f32⟩ : BufTy).Contents (Elt Ideal))
    (x1 x2 x3 x4 : (⟨S128x2, .i32⟩ : BufTy).Contents (Elt Ideal)) :
    val_main_v37 (F := Ideal) x0 x1 x2 x3 x4
      = Cert.Masking.masked x0 (val_main_v13 (F := Ideal) x1 x2) (val_main_v27 (F := Ideal) x3 x4) := by
  funext i
  rw [result_apply]
  exact Cert.Masking.regroup _ _ _

end Cert.ReferenceIdeal.Masked

end
-- ==== Proof.lean ====
/-
  A kernel that zeroes masked frequency bins and time steps of a batch, against its array-level reference,
  over the extended reals.

  Both programs build, from the four integer arguments, the same two bit masks per sample — bin `f` lies in one of
  two frequency bands, step `t` lies in one of two time spans (start ≤ index < start + width) — with the same host
  operations on the same operands, and turn their complements into keep factors 0 or 1.  The kernel multiplies
  `x` block by block over an 8 × 4 grid, first by the bin factor and then by the step factor:

      out (b, t, f) = ( x (b, t, f) · u (¬ fb (b, f)) ) · u (¬ tb (b, t))        (Proof/KernelArray.lean),

  while the reference multiplies the two factors first and `x` by their product:

      ref (b, t, f) = x (b, t, f) · ( u (¬ fb (b, f)) · u (¬ tb (b, t)) )        (Proof/ReferenceArray.lean).

  On the extended reals the two agree by associativity of the product, at every input, finite or not
  (Proof/Masking.lean); the precondition is not used.  The kernel's idealization rewrote no operation, so it is
  the kernel's own text read over the extended reals and that claim holds trivially.  The three programs run,
  fault-free, leaving their arguments unchanged: the two kernels' by the generated frame of the one region, the
  reference's by its generated run with the result dropped.
-/
import proofs.«174696_j75239237092009_1_alg».proof.Defs
import proofs.«174696_j75239237092009_1_alg».proof.Proof.Gen.Kernel
import proofs.«174696_j75239237092009_1_alg».proof.Proof.Gen.Kernel.Skeleton
import proofs.«174696_j75239237092009_1_alg».proof.Proof.Gen.Kernel.Launch
import proofs.«174696_j75239237092009_1_alg».proof.Proof.Gen.Kernel.Points
import proofs.«174696_j75239237092009_1_alg».proof.Proof.Gen.Kernel.Frame
import proofs.«174696_j75239237092009_1_alg».proof.Proof.Gen.KernelIdeal
import proofs.«174696_j75239237092009_1_alg».proof.Proof.Gen.KernelIdeal.Skeleton
import proofs.«174696_j75239237092009_1_alg».proof.Proof.Gen.KernelIdeal.Launch
import proofs.«174696_j75239237092009_1_alg».proof.Proof.Gen.KernelIdeal.Points
import proofs.«174696_j75239237092009_1_alg».proof.Proof.Gen.KernelIdeal.Frame
import proofs.«174696_j75239237092009_1_alg».proof.Proof.Gen.ReferenceIdeal
import proofs.«174696_j75239237092009_1_alg».proof.Proof.Gen.Pre_finite_inputs
import proofs.«174696_j75239237092009_1_alg».proof.Proof.Gen.KernelIdeal.Value
import proofs.«174696_j75239237092009_1_alg».proof.Proof.Gen.ReferenceIdeal.Run
import proofs.«174696_j75239237092009_1_alg».proof.Proof.Gen.ReferenceIdeal.Read
import proofs.«174696_j75239237092009_1_alg».proof.Proof.Masking
import proofs.«174696_j75239237092009_1_alg».proof.Proof.KernelArray
import proofs.«174696_j75239237092009_1_alg».proof.Proof.ReferenceArray
import Idealize.ShloMosaic.Adequacy
import Idealize.ShloMosaic.Init

noncomputable section

namespace Cert.Proof

open Idealize.ShloMosaic Idealize.SL.Sem

/-! ## The two programs compute the same band masks -/

/-- The kernel's frequency-band mask and the reference's are the same operations of the same operands. -/
theorem freqBand_eq (x1 x2 : (⟨Cert.KernelIdeal.S128x2, .i32⟩ : BufTy).Contents (Elt Ideal)) :
    Cert.KernelIdeal.Masked.freqBand (F := Ideal) x1 x2 = Cert.ReferenceIdeal.Read.val_main_v13 (F := Ideal) x1 x2 := rfl

/-- The kernel's time-span mask and the reference's are the same operations of the same operands. -/
theorem timeBand_eq (x3 x4 : (⟨Cert.KernelIdeal.S128x2, .i32⟩ : BufTy).Contents (Elt Ideal)) :
    Cert.KernelIdeal.Masked.timeBand (F := Ideal) x3 x4 = Cert.ReferenceIdeal.Read.val_main_v27 (F := Ideal) x3 x4 := rfl

/-! ## The claims -/

/-- The kernel as printed runs and leaves its arguments unchanged: the generated frame of its one region. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From arguments that agree, both programs end with the result at the masked array of the arguments: the
    kernel's blocks tile it, the reference's last stage regroups to it, and the band masks are the same terms. -/
theorem algebraic : Cert.algebraic_KernelIdeal_ReferenceIdeal := by
  intro m ρ m' ρ' _ hagree
  refine ⟨_, Cert.KernelIdeal.Masked.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.Masked.result_eq,
    (hagree c).1, (hagree c).2.1, (hagree c).2.2.1, (hagree c).2.2.2.1, (hagree c).2.2.2.2,
    ← freqBand_eq, ← timeBand_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
